-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x256x256 : Shape := ⟨4, ![64, 4, 256, 256]⟩
abbrev S_ : Shape := ⟨0, ![]⟩

class Facts : Prop where
  bcast_S_S64x4x256x256 : S_.BroadcastsInDim S64x4x256x256 (![] : Fin 0 → Fin S64x4x256x256.rank)
  reducesTo_S64x4x256x256_S_d0_1_2_3 : S64x4x256x256.ReducesTo [0, 1, 2, 3] S_
  h_S_ : 0 < S_.numel

variable [Facts]

def fn {F : FTy → Type} [FloatOps F] (main_arg0 : FVec F S64x4x256x256 .f32) (main_arg1 : FVec F S64x4x256x256 .f32) (main_arg2 : FVec F S64x4x256x256 .f32) : IVec S_ 1 :=
  let main_v0 : FVec F S64x4x256x256 .f32 := Host.absf main_arg0
  let main_cst : FVec F S_ .f32 := constant S_ .f32 0x7F800000#32
  let main_v1 : FVec F S64x4x256x256 .f32 := broadcastInDim S64x4x256x256 ![] bcast_S_S64x4x256x256 main_cst
  let main_v2 : IVec S64x4x256x256 1 := cmpf .olt main_v0 main_v1
  let main_c : IVec S_ 1 := constantI S_ 1 1#1
  let main_v3 : IVec S_ 1 := (fun x v => Host.reduce IntOp.andi x v reducesTo_S64x4x256x256_S_d0_1_2_3 h_S_) main_v2 main_c
  let main_v4 : FVec F S64x4x256x256 .f32 := Host.absf main_arg1
  let main_cst_0 : FVec F S_ .f32 := constant S_ .f32 0x7F800000#32
  let main_v5 : FVec F S64x4x256x256 .f32 := broadcastInDim S64x4x256x256 ![] bcast_S_S64x4x256x256 main_cst_0
  let main_v6 : IVec S64x4x256x256 1 := cmpf .olt main_v4 main_v5
  let main_c_1 : IVec S_ 1 := constantI S_ 1 1#1
  let main_v7 : IVec S_ 1 := (fun x v => Host.reduce IntOp.andi x v reducesTo_S64x4x256x256_S_d0_1_2_3 h_S_) main_v6 main_c_1
  let main_v8 : IVec S_ 1 := andi main_v3 main_v7
  let main_v9 : FVec F S64x4x256x256 .f32 := Host.absf main_arg2
  let main_cst_2 : FVec F S_ .f32 := constant S_ .f32 0x7F800000#32
  let main_v10 : FVec F S64x4x256x256 .f32 := broadcastInDim S64x4x256x256 ![] bcast_S_S64x4x256x256 main_cst_2
  let main_v11 : IVec S64x4x256x256 1 := cmpf .olt main_v9 main_v10
  let main_c_3 : IVec S_ 1 := constantI S_ 1 1#1
  let main_v12 : IVec S_ 1 := (fun x v => Host.reduce IntOp.andi x v reducesTo_S64x4x256x256_S_d0_1_2_3 h_S_) main_v11 main_c_3
  let main_v13 : IVec S_ 1 := andi main_v8 main_v12
  main_v13
-- ==== Kernel.lean ====
abbrev S64x4x256x256 : Shape := ⟨4, ![64, 4, 256, 256]⟩
abbrev S64x262144 : Shape := ⟨2, ![64, 262144]⟩
abbrev S64x1 : Shape := ⟨2, ![64, 1]⟩
abbrev S32x32768 : Shape := ⟨2, ![32, 32768]⟩
abbrev S32x1 : Shape := ⟨2, ![32, 1]⟩
abbrev S32 : Shape := ⟨1, ![32]⟩
abbrev S64 : Shape := ⟨1, ![64]⟩
abbrev S1x64 : Shape := ⟨2, ![1, 64]⟩
abbrev S64x64 : Shape := ⟨2, ![64, 64]⟩
abbrev S_ : Shape := ⟨0, ![]⟩

abbrev nBuf : Space → Nat
  | .hbm => 46
  | .vmem => 12
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .f32⟩
  | .hbm, ⟨3, _⟩ => ⟨S64x262144, .f32⟩
  | .hbm, ⟨4, _⟩ => ⟨S64x262144, .f32⟩
  | .hbm, ⟨5, _⟩ => ⟨S64x262144, .f32⟩
  | .hbm, ⟨6, _⟩ => ⟨S64x1, .f32⟩
  | .hbm, ⟨7, _⟩ => ⟨S64x1, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1x64, .f32⟩
  | .hbm, ⟨12, _⟩ => ⟨S64x1, .f32⟩
  | .hbm, ⟨13, _⟩ => ⟨S1x64, .f32⟩
  | .hbm, ⟨14, _⟩ => ⟨S64x64, .f32⟩
  | .hbm, ⟨15, _⟩ => ⟨S64x64, .f32⟩
  | .hbm, ⟨16, _⟩ => ⟨S64x64, .i1⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | _, _ => ⟨S64x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_cst : Ref sig .tc := ⟨.hbm, 38, rfl⟩
abbrev main_call1_v5 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x4x256x256_S64x262144 : S64x4x256x256.ShapeCasts S64x262144
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  reduces_S32x32768_S32 : S32x32768.Reduces [1] S32
  shapeCasts_S32_S32x1 : S32.ShapeCasts S32x1
  shapeCasts_S64x1_S64 : S64x1.ShapeCasts S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x262144.size a
  hwx0_0 : ∀ i : grid0.Coords, EltTy.bits .f32 = 32 ∨ (Rect.block (s := S64x262144) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x262144.size a
  hwx0_1 : ∀ i : grid0.Coords, EltTy.bits .f32 = 32 ∨ (Rect.block (s := S64x262144) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S64x262144.size a
  hwx0_2 : ∀ i : grid0.Coords, EltTy.bits .f32 = 32 ∨ (Rect.block (s := S64x262144) S32x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)

variable [Facts₀]

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x4x256x256 : Shape := ⟨4, ![64, 4, 256, 256]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩

abbrev nBuf : Space → Nat
  | .hbm => 51
  | .vmem => 0
  | .smem => 0
  | _ => 0

abbrev bufTy : (tb : Table) → Fin (tcTables nBuf tb) → BufTy
  | .hbm, ⟨0, _⟩ => ⟨S64x4x256x256, .f32⟩
  | .hbm, ⟨1, _⟩ => ⟨S64x4x256x256, .f32⟩
  | .hbm, ⟨2, _⟩ => ⟨S64x4x256x256, .f32⟩
  | .hbm, ⟨3, _⟩ => ⟨S64x4x256x256, .f32⟩
  | .hbm, ⟨4, _⟩ => ⟨S64x4x256x256, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S1x64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .i1⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i32⟩
  | .hbm, ⟨42, _⟩ => ⟨S64x64, .i1⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_cst : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  reducesTo_S64x4x256x256_S64_d1_2_3 : S64x4x256x256.ReducesTo [1, 2, 3] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_

variable [Facts₀]

class Facts : Prop extends Facts₀ where

variable [Facts]
-- ==== Proof.Visit.lean ====
/-
  What one visit of a grid point leaves behind, read back as values.

  The kernel keeps two running columns of 32 numbers in scratch memory: the sum so far of
  |pred_mean - targets| along a sample's features, and the sum so far of pred_std. A visit adds
  to each column the lane sum of the block it is handed. There are three kinds of visit:
    * the first visit of a row band (feature block 0) clears both columns, then adds;
    * a middle visit only adds to what the visit before left;
    * the last visit (feature block 7) adds, then also writes each column, scaled by the
      constant 2^(-18), to the band's output block.
  Each statement below says which pure expression of the blocks (and of the previous columns)
  a visit leaves in a column or in an output block. The expressions are the body's own
  payload terms; the arithmetic inside them is opened in the next module.

  In every statement x0, x1, x2 are the blocks of pred_mean, pred_std and targets the visit is
  handed, and xs0, xs1 the two columns as the visit before left them.
-/
import proofs.«148570_j33818572488744_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Visit

open Cert.KernelIdeal Cert.KernelIdeal.Gen

variable {F : FTy → Type} [FloatOps F]

/-- Every load and store of the body is at offset (0, 0) of its buffer. -/
theorem hz : (![0, 0] : Fin 2 → Nat) = fun _ => 0 := funext fun a => by fin_cases a <;> rfl

variable (c : Dev nD) (i : grid0.Coords)
  (a2 : Memref sig .tc .vmem S32x32768 .f32) (h2 : a2.IsWhole)
  (a3 : Memref sig .tc .vmem S32x32768 .f32) (h3 : a3.IsWhole)
  (a4 : Memref sig .tc .vmem S32x32768 .f32) (h4 : a4.IsWhole)
  (a5 : Memref sig .tc .vmem S32x1 .f32) (h5 : a5.IsWhole)
  (a6 : Memref sig .tc .vmem S32x1 .f32) (h6 : a6.IsWhole)
  (a7 : Memref sig .tc .vmem S32x1 .f32) (h7 : a7.IsWhole)
  (a8 : Memref sig .tc .vmem S32x1 .f32) (h8 : a8.IsWhole)

/-! ## The first visit of a band: both columns are cleared, then added to

The clearing store is covered by the update, and the update read the cleared column back. -/

/-- The error column after a first visit: the cleared column plus the block's lane sum of |x0 - x2|. -/
theorem errAcc_first (hc0 : cond0_0 i) (hc1 : ¬cond0_1 i) (x0 x1 x2 : Vec F S32x32768 .f32) :
    sout0_A_0 c i a2 h2 a3 h3 a4 h4 a5 h5 a6 h6 a7 h7 a8 h8 hc0 hc1 x0 x1 x2 = k0_pay3 x0 x2 (k0_pay1 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S32x1) hz, View.readCov_unit_zero (S := S32x1) _ hz]
  simp only [View.readAt_eq_ld, h2.read_unread, h4.read_unread, View.ld_unit_zero (S := S32x32768) hz]

/-- The uncertainty column after a first visit: the cleared column plus the lane sum of x1. -/
theorem uncAcc_first (hc0 : cond0_0 i) (hc1 : ¬cond0_1 i) (x0 x1 x2 : Vec F S32x32768 .f32) :
    sout0_A_1 c i a2 h2 a3 h3 a4 h4 a5 h5 a6 h6 a7 h7 a8 h8 hc0 hc1 x0 x1 x2 = k0_pay4 (k0_pay2 (F := F)) x1 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S32x1) hz, View.readCov_unit_zero (S := S32x1) _ hz]
  simp only [View.readAt_eq_ld, h3.read_unread, View.ld_unit_zero (S := S32x32768) hz]

/-! ## A middle visit: one covering store per column -/

/-- The error column after a middle visit: the previous column plus the block's lane sum of |x0 - x2|. -/
theorem errAcc_middle (hc0 : ¬cond0_0 i) (hc1 : ¬cond0_1 i) (x0 x1 x2 : Vec F S32x32768 .f32) (xs0 xs1 : Vec F S32x1 .f32) :
    sout0_B_0 c i a2 h2 a3 h3 a4 h4 a5 h5 a6 h6 a7 h7 a8 h8 hc0 hc1 x0 x1 x2 xs0 xs1 = k0_pay3 x0 x2 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h2.read_unread, h4.read_unread, h7.read_unread,
    View.ld_unit_zero (S := S32x32768) hz, View.ld_unit_zero (S := S32x1) hz]

/-- The uncertainty column after a middle visit: the previous column plus the lane sum of x1. -/
theorem uncAcc_middle (hc0 : ¬cond0_0 i) (hc1 : ¬cond0_1 i) (x0 x1 x2 : Vec F S32x32768 .f32) (xs0 xs1 : Vec F S32x1 .f32) :
    sout0_B_1 c i a2 h2 a3 h3 a4 h4 a5 h5 a6 h6 a7 h7 a8 h8 hc0 hc1 x0 x1 x2 xs0 xs1 = k0_pay4 xs1 x1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz]
  simp only [View.readAt_eq_ld, h3.read_unread, h8.read_unread,
    View.ld_unit_zero (S := S32x32768) hz, View.ld_unit_zero (S := S32x1) hz]

/-! ## The last visit: the columns are updated as in a middle visit, and written out scaled

Each output store reads the column back after its update, so its payload sits over the update's. -/

/-- The error column after the last visit. -/
theorem errAcc_last (hc0 : ¬cond0_0 i) (hc1 : cond0_1 i) (x0 x1 x2 : Vec F S32x32768 .f32) (xs0 xs1 : Vec F S32x1 .f32) :
    sout0_C_0 c i a2 h2 a3 h3 a4 h4 a5 h5 a6 h6 a7 h7 a8 h8 hc0 hc1 x0 x1 x2 xs0 xs1 = k0_pay3 x0 x2 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h4.read_unread, h7.read_unread,
    View.ld_unit_zero (S := S32x32768) hz, View.ld_unit_zero (S := S32x1) hz]

/-- The uncertainty column after the last visit. -/
theorem uncAcc_last (hc0 : ¬cond0_0 i) (hc1 : cond0_1 i) (x0 x1 x2 : Vec F S32x32768 .f32) (xs0 xs1 : Vec F S32x1 .f32) :
    sout0_C_1 c i a2 h2 a3 h3 a4 h4 a5 h5 a6 h6 a7 h7 a8 h8 hc0 hc1 x0 x1 x2 xs0 xs1 = k0_pay4 xs1 x1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h3.read_unread, h8.read_unread,
    View.ld_unit_zero (S := S32x32768) hz, View.ld_unit_zero (S := S32x1) hz]

/-- The error output block of the last visit: the freshly updated error column, scaled. -/
theorem errOut_last (hc0 : ¬cond0_0 i) (hc1 : cond0_1 i) (x0 x1 x2 : Vec F S32x32768 .f32) (xs0 xs1 : Vec F S32x1 .f32) :
    out0_C_3 c i a2 h2 a3 h3 a4 h4 a5 h5 a6 h6 a7 h7 a8 h8 hc0 hc1 x0 x1 x2 xs0 xs1 = k0_pay5 (k0_pay3 x0 x2 xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h2.read_unread, h4.read_unread, h7.read_unread, View.readCov_unit_zero (S := S32x1) _ hz,
    View.ld_unit_zero (S := S32x32768) hz, View.ld_unit_zero (S := S32x1) hz]

/-- The uncertainty output block of the last visit: the freshly updated uncertainty column, scaled. -/
theorem uncOut_last (hc0 : ¬cond0_0 i) (hc1 : cond0_1 i) (x0 x1 x2 : Vec F S32x32768 .f32) (xs0 xs1 : Vec F S32x1 .f32) :
    out0_C_4 c i a2 h2 a3 h3 a4 h4 a5 h5 a6 h6 a7 h7 a8 h8 hc0 hc1 x0 x1 x2 xs0 xs1 = k0_pay6 (k0_pay4 xs1 x1) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz]
  simp only [View.readAt_eq_ld, h3.read_unread, h8.read_unread, View.readCov_unit_zero (S := S32x1) _ hz,
    View.ld_unit_zero (S := S32x32768) hz, View.ld_unit_zero (S := S32x1) hz]

end Cert.KernelIdeal.Visit

end
-- ==== Proof.Arith.lean ====
/-
  The arithmetic of one visit, entry by entry, over the extended reals.

  A column has 32 entries, one per row of the band; entry r sits at index (r, 0). A block has
  32 rows of 32768 lanes. Read at row r:
    * the cleared column is 0;
    * the error update is  s r + sum over the 32768 lanes l of |x0 (r, l) - x2 (r, l)|;
    * the uncertainty update is  s r + sum over the lanes l of x1 (r, l);
    * the scaled column is  v r * 2^(-18), the constant kept as its float pattern 0x36800000.
  The lane sum is the vector unit's add-reduction along axis 1 from the neutral accumulator,
  which over the extended reals is the plain finite sum of the row; the result, a vector of 32
  numbers, is viewed as a 32-by-1 column, entry r of the one being entry (r, 0) of the other.
-/
import proofs.«148570_j33818572488744_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Arith

open Cert.KernelIdeal Cert.KernelIdeal.Gen

/-- A vector of 32 numbers viewed as a 32-by-1 column: entry (r, 0) of the column is entry r of the vector
    (both sit at row-major position r). -/
theorem column_apply (v : S32.Idx → EReal) (h : S32.ShapeCasts S32x1) (r : Fin 32) :
    shapeCast S32x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The add-reduction of a block along its lanes, read at row r: the sum of that row. -/
theorem laneSum_apply (v : FVec Ideal S32x32768 .f32) (h : S32x32768.Reduces [1] S32) (hφ : FKind.Formats .f32)
    (hacc : (0x00000000#32 : BitVec 32) = FKind.add.neutral .f32 hφ) (r : Fin 32) :
    multiReduction .add [1] S32 v 0x00000000#32 h hφ hacc (ix1 r) = ∑ l : Fin 32768, v (ix2 r l) := by
  refine (Ideal.multiReduction_add_single v 0x00000000#32 h hφ hacc (ix1 r)).trans ?_
  refine Finset.sum_congr rfl fun l _ => congrArg v (funext fun a => ?_)
  match a with
  | ⟨0, _⟩ => rfl
  | ⟨1, _⟩ => rfl

/-- The cleared error column is zero everywhere. -/
theorem cleared_err (j : S32x1.Idx) : k0_pay1 (F := Ideal) j = 0 := by
  unfold k0_pay1
  simp only [shapeCast_self]
  exact Ideal.ofBits_zero_f32

/-- The cleared uncertainty column is zero everywhere. -/
theorem cleared_unc (j : S32x1.Idx) : k0_pay2 (F := Ideal) j = 0 := by
  unfold k0_pay2
  simp only [shapeCast_self]
  exact Ideal.ofBits_zero_f32

/-- The error update at row r: the column's entry plus the row's sum of |x0 - x2|. -/
theorem errUpdate_apply (x0 x2 : Vec Ideal S32x32768 .f32) (s : Vec Ideal S32x1 .f32) (r : Fin 32) :
    k0_pay3 x0 x2 s (ix2 r (0 : Fin 1))
      = s (ix2 r (0 : Fin 1)) + ∑ l : Fin 32768, FloatOps.absf (x0 (ix2 r l) - x2 (ix2 r l)) := by
  unfold k0_pay3
  simp only [shapeCast_self]
  refine congrArg (s (ix2 r (0 : Fin 1)) + ·) ?_
  refine (column_apply _ _ r).trans ?_
  exact laneSum_apply _ _ _ _ r

/-- The uncertainty update at row r: the column's entry plus the row's sum of x1. -/
theorem uncUpdate_apply (s : Vec Ideal S32x1 .f32) (x1 : Vec Ideal S32x32768 .f32) (r : Fin 32) :
    k0_pay4 s x1 (ix2 r (0 : Fin 1)) = s (ix2 r (0 : Fin 1)) + ∑ l : Fin 32768, x1 (ix2 r l) := by
  unfold k0_pay4
  simp only [shapeCast_self]
  refine congrArg (s (ix2 r (0 : Fin 1)) + ·) ?_
  refine (column_apply _ _ r).trans ?_
  exact laneSum_apply _ _ _ _ r

/-- The scaled error column: each entry times the constant. -/
theorem errScaled_apply (v : Vec Ideal S32x1 .f32) (j : S32x1.Idx) :
    k0_pay5 v j = v j * Ideal.ofBits .f32 0x36800000#32 := rfl

/-- The scaled uncertainty column: each entry times the constant. -/
theorem uncScaled_apply (v : Vec Ideal S32x1 .f32) (j : S32x1.Idx) :
    k0_pay6 v j = v j * Ideal.ofBits .f32 0x36800000#32 := rfl

end Cert.KernelIdeal.Arith

end
-- ==== Proof.Features.lean ====
/-
  One sample's 262144 features, indexed two ways.

  The inputs are arrays of shape [64, 4, 256, 256]: sample b, then three feature axes. Flattening
  the feature axes row-major gives [64, 262144]: flat feature k of sample b is the entry at
  (b, k / 65536, (k / 256) % 256, k % 256), since 65536 = 256 * 256 and k < 4 * 65536. Both arrays
  put that entry at row-major position 262144 * b + k, which is what a reshape preserves
  (`flat_apply`).

  Summing an array over its three feature axes, sample by sample, is therefore summing over the
  flat feature: the entries whose first coordinate is b are exactly the `entry b k`, once each
  (`sampleSum_apply`: k is recovered from an index as 65536 * i1 + 256 * i2 + i3).
-/
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Features

/-- The inputs' shape, the flattened shape, and the shape of one number per sample. -/
abbrev Full : Shape := ⟨4, ![64, 4, 256, 256]⟩
abbrev Flat : Shape := ⟨2, ![64, 262144]⟩
abbrev PerSample : Shape := ⟨1, ![64]⟩

/-- Flat feature k of sample b, as an index of the inputs. -/
def entry (b : Fin 64) (k : Fin 262144) : Full.Idx :=
  ix4 b ⟨k.val / 65536, by have := k.isLt; omega⟩ ⟨k.val / 256 % 256, Nat.mod_lt _ (by decide)⟩
    ⟨k.val % 256, Nat.mod_lt _ (by decide)⟩

/-- The flat feature an index of the inputs is. -/
def flatOf (i : Full.Idx) : Fin 262144 :=
  ⟨65536 * (i 1).val + 256 * (i 2).val + (i 3).val, by
    have h1 : (i 1).val < 4 := (i 1).isLt
    have h2 : (i 2).val < 256 := (i 2).isLt
    have h3 : (i 3).val < 256 := (i 3).isLt
    omega⟩

theorem flatOf_entry (b : Fin 64) (k : Fin 262144) : flatOf (entry b k) = k := by
  apply Fin.ext
  show 65536 * (k.val / 65536) + 256 * (k.val / 256 % 256) + k.val % 256 = k.val
  omega

theorem entry_flatOf (i : Full.Idx) : entry (i 0) (flatOf i) = i := by
  have h1 : (i 1).val < 4 := (i 1).isLt
  have h2 : (i 2).val < 256 := (i 2).isLt
  have h3 : (i 3).val < 256 := (i 3).isLt
  funext a
  apply Fin.ext
  match a with
  | ⟨0, _⟩ => rfl
  | ⟨1, _⟩ =>
    show (65536 * (i 1).val + 256 * (i 2).val + (i 3).val) / 65536 = (i 1).val
    omega
  | ⟨2, _⟩ =>
    show (65536 * (i 1).val + 256 * (i 2).val + (i 3).val) / 256 % 256 = (i 2).val
    omega
  | ⟨3, _⟩ =>
    show (65536 * (i 1).val + 256 * (i 2).val + (i 3).val) % 256 = (i 3).val
    omega

/-- The flattened array at (b, k) is the array at `entry b k`: same row-major position. -/
theorem flat_apply {α : Type} (x : Full.Idx → α) (h : Full.ShapeCasts Flat) (b : Fin 64) (k : Fin 262144) :
    shapeCast Flat x h (ix2 b k) = x (entry b k) :=
  shapeCast_apply x h (ix2 b k) (entry b k) (by
    rw [Shape.rowMajor_val_four, Shape.rowMajor_val_two]
    show ((b.val * 4 + k.val / 65536) * 256 + k.val / 256 % 256) * 256 + k.val % 256 = b.val * 262144 + k.val
    have := k.isLt
    omega)

/-- Dropping the three feature axes of an index leaves its sample. -/
theorem drop_val (h : Full.ReducesTo [1, 2, 3] PerSample) (i : Full.Idx) : (h.drop i 0).val = (i 0).val := rfl

/-- The host's sum over the three feature axes from an initial value, at sample b: the initial value plus the sum
    over the flat feature. -/
theorem sampleSum_apply (h : Full.ReducesTo [1, 2, 3] PerSample) (x : Full.Idx → EReal) (init : EReal) (b : Fin 64) :
    Ideal.hostReduceAdd h x init (ix1 b) = init + ∑ k : Fin 262144, x (entry b k) := by
  unfold Ideal.hostReduceAdd
  refine congrArg (init + ·) ?_
  refine Finset.sum_nbij' flatOf (entry b) ?_ ?_ ?_ ?_ ?_
  · intro i _; exact Finset.mem_univ _
  · intro k _
    refine Finset.mem_filter.2 ⟨Finset.mem_univ _, funext fun a => Fin.ext ?_⟩
    match a with
    | ⟨0, _⟩ => rfl
  · intro i hi
    have hb : (i 0).val = b.val := congrArg Fin.val (congrFun (Finset.mem_filter.1 hi).2 0)
    have hb' : i 0 = b := Fin.ext hb
    rw [← hb']
    exact entry_flatOf i
  · intro k _; exact flatOf_entry b k
  · intro i hi
    have hb : (i 0).val = b.val := congrArg Fin.val (congrFun (Finset.mem_filter.1 hi).2 0)
    have hb' : i 0 = b := Fin.ext hb
    rw [← hb', entry_flatOf]

end Cert.Features

end
-- ==== Proof.Blocks.lean ====
/-
  What a visit is handed: its three blocks, as entries of the inputs.

  The grid has 16 points, visited in order t = 0, …, 15; point t works on row band t / 8 (rows
  32 * (t / 8) … + 31 of the 64 samples) and feature block t % 8 (flat features
  32768 * (t % 8) … + 32767). Each of the three arrays the region reads is one input flattened to
  [64, 262144] by the host before the region starts. So lane l of row r of a block at point t is
  flat feature 32768 * (t % 8) + l of sample 32 * (t / 8) + r of the corresponding input.
-/
import proofs.«148570_j33818572488744_1_alg».proof.Proof.Gen.KernelIdeal.Frame
import proofs.«148570_j33818572488744_1_alg».proof.Proof.Features
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Features

variable {F : FTy → Type} [FloatOps F]
variable (m : (ℓ : Loc nD τ sig) → Buf (Elt F) ℓ)

/-- The sample that row r of point t's band is. -/
def sampleOf (t : Fin cfg0.N) (r : Fin 32) : Fin 64 :=
  ⟨32 * (t.val / 8) + r.val, by have := t.isLt; have hN : cfg0.N = 16 := N_0; have := r.isLt; omega⟩

/-- The flat feature that lane l of point t's feature block is. -/
def featureOf (t : Fin cfg0.N) (l : Fin 32768) : Fin 262144 :=
  ⟨32768 * (t.val % 8) + l.val, by have := l.isLt; omega⟩

/-- The three input windows step alike: block row t / 8, block column t % 8. -/
theorem index_in : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8) :=
  (by decide +kernel : ∀ t : Fin grid0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 2) = t.val / 8 ∧ win0_2.index t (1 : Fin 2) = t.val % 8))

/-- The three arrays the region reads, and the blocks of them a visit is handed, at their literal types. -/
abbrev pmFlat (c : Dev nD) : Vec F S64x262144 .f32 := V m c main_v0
abbrev psFlat (c : Dev nD) : Vec F S64x262144 .f32 := V m c main_v1
abbrev tgFlat (c : Dev nD) : Vec F S64x262144 .f32 := V m c main_v2
abbrev pmBlk (c : Dev nD) (t : Fin cfg0.N) : Vec F S32x32768 .f32 := iblk m c 0 t
abbrev psBlk (c : Dev nD) (t : Fin cfg0.N) : Vec F S32x32768 .f32 := iblk m c 1 t
abbrev tgBlk (c : Dev nD) (t : Fin cfg0.N) : Vec F S32x32768 .f32 := iblk m c 2 t

/-- A block entry is the flattened array's entry at the band's sample and the block's flat feature. -/
theorem pmBlk_apply (c : Dev nD) (t : Fin cfg0.N) (r : Fin 32) (l : Fin 32768) :
    pmBlk m c t (ix2 r l) = pmFlat m c (ix2 (sampleOf t r) (featureOf t l)) := by
  unfold pmBlk pmFlat iblk
  rw [View.read_apply]
  show V m c main_v0 _ = V m c main_v0 _
  refine congrArg (V m c main_v0) (funext fun a => Fin.ext ?_)
  match a with
  | ⟨0, _⟩ =>
    show win0_0.index t 0 * 32 + 1 * r.val = 32 * (t.val / 8) + r.val
    rw [(index_in t).1.1]; omega
  | ⟨1, _⟩ =>
    show win0_0.index t 1 * 32768 + 1 * l.val = 32768 * (t.val % 8) + l.val
    rw [(index_in t).1.2]; omega

theorem psBlk_apply (c : Dev nD) (t : Fin cfg0.N) (r : Fin 32) (l : Fin 32768) :
    psBlk m c t (ix2 r l) = psFlat m c (ix2 (sampleOf t r) (featureOf t l)) := by
  unfold psBlk psFlat iblk
  rw [View.read_apply]
  show V m c main_v1 _ = V m c main_v1 _
  refine congrArg (V m c main_v1) (funext fun a => Fin.ext ?_)
  match a with
  | ⟨0, _⟩ =>
    show win0_1.index t 0 * 32 + 1 * r.val = 32 * (t.val / 8) + r.val
    rw [(index_in t).2.1.1]; omega
  | ⟨1, _⟩ =>
    show win0_1.index t 1 * 32768 + 1 * l.val = 32768 * (t.val % 8) + l.val
    rw [(index_in t).2.1.2]; omega

theorem tgBlk_apply (c : Dev nD) (t : Fin cfg0.N) (r : Fin 32) (l : Fin 32768) :
    tgBlk m c t (ix2 r l) = tgFlat m c (ix2 (sampleOf t r) (featureOf t l)) := by
  unfold tgBlk tgFlat iblk
  rw [View.read_apply]
  show V m c main_v2 _ = V m c main_v2 _
  refine congrArg (V m c main_v2) (funext fun a => Fin.ext ?_)
  match a with
  | ⟨0, _⟩ =>
    show win0_2.index t 0 * 32 + 1 * r.val = 32 * (t.val / 8) + r.val
    rw [(index_in t).2.2.1]; omega
  | ⟨1, _⟩ =>
    show win0_2.index t 1 * 32768 + 1 * l.val = 32768 * (t.val % 8) + l.val
    rw [(index_in t).2.2.2]; omega

/-- The host flattens each input before the region starts. -/
theorem pmFlat_eq (c : Dev nD) :
    pmFlat m c = shapeCast S64x262144 (m ((c : Thread nD τ).loc main_arg0)) shapeCasts_S64x4x256x256_S64x262144 := by
  unfold pmFlat
  show StableHlo.after hostOps0 (fun b => m (c, b)) (Proc.devRef .tc main_v0) = _
  after_results
  rfl

theorem psFlat_eq (c : Dev nD) :
    psFlat m c = shapeCast S64x262144 (m ((c : Thread nD τ).loc main_arg1)) shapeCasts_S64x4x256x256_S64x262144 := by
  unfold psFlat
  show StableHlo.after hostOps0 (fun b => m (c, b)) (Proc.devRef .tc main_v1) = _
  after_results
  rfl

theorem tgFlat_eq (c : Dev nD) :
    tgFlat m c = shapeCast S64x262144 (m ((c : Thread nD τ).loc main_arg2)) shapeCasts_S64x4x256x256_S64x262144 := by
  unfold tgFlat
  show StableHlo.after hostOps0 (fun b => m (c, b)) (Proc.devRef .tc main_v2) = _
  after_results
  rfl

/-- So a block entry is an entry of the input itself. -/
theorem pmBlk_entry (c : Dev nD) (t : Fin cfg0.N) (r : Fin 32) (l : Fin 32768) :
    pmBlk m c t (ix2 r l) = m ((c : Thread nD τ).loc main_arg0) (entry (sampleOf t r) (featureOf t l)) := by
  rw [pmBlk_apply, pmFlat_eq]
  exact flat_apply _ _ _ _

theorem psBlk_entry (c : Dev nD) (t : Fin cfg0.N) (r : Fin 32) (l : Fin 32768) :
    psBlk m c t (ix2 r l) = m ((c : Thread nD τ).loc main_arg1) (entry (sampleOf t r) (featureOf t l)) := by
  rw [psBlk_apply, psFlat_eq]
  exact flat_apply _ _ _ _

theorem tgBlk_entry (c : Dev nD) (t : Fin cfg0.N) (r : Fin 32) (l : Fin 32768) :
    tgBlk m c t (ix2 r l) = m ((c : Thread nD τ).loc main_arg2) (entry (sampleOf t r) (featureOf t l)) := by
  rw [tgBlk_apply, tgFlat_eq]
  exact flat_apply _ _ _ _

end Cert.KernelIdeal.Blocks

end
-- ==== Proof.Accum.lean ====
/-
  The two running columns, in closed form.

  Fix a row r of a band. Write E k for |pred_mean - targets| at the band's sample and flat
  feature k, and U k for pred_std there. After the visit at grid point t, which handles feature
  block t % 8 of its band, the error column's entry r is

      sum over feature blocks f = 0 … t % 8 of (sum over lanes l of E (32768 * f + l)),

  and the uncertainty column's entry is the same with U. This is proved one visit at a time:
  a visit leaves the previous entry (zero, on the band's first visit, where the columns are
  cleared) plus its own block's row sum; the visit before belongs to the same band whenever
  t % 8 is not 0. The last visit of a band, t % 8 = 7, also writes each entry, times 2^(-18), to
  the band's output block.
-/
import proofs.«148570_j33818572488744_1_alg».proof.Proof.Visit
import proofs.«148570_j33818572488744_1_alg».proof.Proof.Arith
import proofs.«148570_j33818572488744_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.Features Cert.KernelIdeal.Blocks

variable (m : (ℓ : Loc nD τ sig) → Buf (Elt Ideal) ℓ)

/-- The three inputs as launched, at their literal type. -/
abbrev pmArg (c : Dev nD) : Vec Ideal S64x4x256x256 .f32 := m ((c : Thread nD τ).loc main_arg0)
abbrev psArg (c : Dev nD) : Vec Ideal S64x4x256x256 .f32 := m ((c : Thread nD τ).loc main_arg1)
abbrev tgArg (c : Dev nD) : Vec Ideal S64x4x256x256 .f32 := m ((c : Thread nD τ).loc main_arg2)

/-- |pred_mean - targets| at sample b and flat feature k (zero past the last feature, where nothing is summed). -/
def errOn (c : Dev nD) (b : Fin 64) (k : ℕ) : EReal :=
  if hk : k < 262144 then
    FloatOps.absf (F := Ideal) (φ := .f32) (pmArg m c (entry b ⟨k, hk⟩) - tgArg m c (entry b ⟨k, hk⟩))
  else 0

/-- pred_std at sample b and flat feature k. -/
def uncOn (c : Dev nD) (b : Fin 64) (k : ℕ) : EReal :=
  if hk : k < 262144 then psArg m c (entry b ⟨k, hk⟩) else 0

/-- The row sum a visit adds to the error column, over the inputs' entries. -/
theorem errBlock_sum (c : Dev nD) (t : Fin cfg0.N) (r : Fin 32) :
    ∑ l : Fin 32768, FloatOps.absf (F := Ideal) (φ := .f32) (pmBlk m c t (ix2 r l) - tgBlk m c t (ix2 r l))
      = ∑ l : Fin 32768, errOn m c (sampleOf t r) (32768 * (t.val % 8) + l.val) := by
  refine Finset.sum_congr rfl fun l _ => ?_
  rw [pmBlk_entry, tgBlk_entry]
  have hk : 32768 * (t.val % 8) + l.val < 262144 := by have := l.isLt; omega
  unfold errOn
  rw [dif_pos hk]
  rfl

/-- The row sum a visit adds to the uncertainty column, over the inputs' entries. -/
theorem uncBlock_sum (c : Dev nD) (t : Fin cfg0.N) (r : Fin 32) :
    ∑ l : Fin 32768, psBlk m c t (ix2 r l)
      = ∑ l : Fin 32768, uncOn m c (sampleOf t r) (32768 * (t.val % 8) + l.val) := by
  refine Finset.sum_congr rfl fun l _ => ?_
  rw [psBlk_entry]
  have hk : 32768 * (t.val % 8) + l.val < 262144 := by have := l.isLt; omega
  unfold uncOn
  rw [dif_pos hk]
  rfl

/-- The error column's entry r before the visit at t: zero on a band's first visit, else what the visit before left. -/
def errPrev (c : Dev nD) (t : Fin cfg0.N) (r : Fin 32) : EReal :=
  if t.val % 8 = 0 then 0
  else (outsAt0 m c (t.val - 1) (Nat.lt_of_le_of_lt (Nat.sub_le _ _) t.isLt)).2.2.1 (ix2 r (0 : Fin 1))

/-- The uncertainty column's entry r before the visit at t. -/
def uncPrev (c : Dev nD) (t : Fin cfg0.N) (r : Fin 32) : EReal :=
  if t.val % 8 = 0 then 0
  else (outsAt0 m c (t.val - 1) (Nat.lt_of_le_of_lt (Nat.sub_le _ _) t.isLt)).2.2.2 (ix2 r (0 : Fin 1))

/-- One visit, error column: the entry before plus the block's row sum. -/
theorem errCol_step (c : Dev nD) (t : Fin cfg0.N) (r : Fin 32) :
    (outsAt0 m c t.val t.isLt).2.2.1 (ix2 r (0 : Fin 1))
      = errPrev m c t r + ∑ l : Fin 32768, errOn m c (sampleOf t r) (32768 * (t.val % 8) + l.val) := by
  rw [← errBlock_sum]
  unfold errPrev
  by_cases h0 : t.val % 8 = 0
  · have h1 : ¬t.val % 8 = 7 := by omega
    rw [if_pos h0, outsAt0_A m c t h0 h1]
    dsimp only
    refine (congrFun (Visit.errAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) (ix2 r (0 : Fin 1))).trans ?_
    refine (Arith.errUpdate_apply (pmBlk m c t) (tgBlk m c t) (k0_pay1 (F := Ideal)) r).trans ?_
    rw [Arith.cleared_err]
  · by_cases h1 : t.val % 8 = 7
    · rw [if_neg h0, outsAt0_C m c t h0 h1]
      dsimp only
      refine (congrFun (Visit.errAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact Arith.errUpdate_apply (pmBlk m c t) (tgBlk m c t) (outsAt0 m c (t.val - 1) (Nat.lt_of_le_of_lt (Nat.sub_le _ _) t.isLt)).2.2.1 r
    · rw [if_neg h0, outsAt0_B m c t h0 h1]
      dsimp only
      refine (congrFun (Visit.errAcc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact Arith.errUpdate_apply (pmBlk m c t) (tgBlk m c t) (outsAt0 m c (t.val - 1) (Nat.lt_of_le_of_lt (Nat.sub_le _ _) t.isLt)).2.2.1 r

/-- One visit, uncertainty column: the entry before plus the block's row sum. -/
theorem uncCol_step (c : Dev nD) (t : Fin cfg0.N) (r : Fin 32) :
    (outsAt0 m c t.val t.isLt).2.2.2 (ix2 r (0 : Fin 1))
      = uncPrev m c t r + ∑ l : Fin 32768, uncOn m c (sampleOf t r) (32768 * (t.val % 8) + l.val) := by
  rw [← uncBlock_sum]
  unfold uncPrev
  by_cases h0 : t.val % 8 = 0
  · have h1 : ¬t.val % 8 = 7 := by omega
    rw [if_pos h0, outsAt0_A m c t h0 h1]
    dsimp only
    refine (congrFun (Visit.uncAcc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)) (ix2 r (0 : Fin 1))).trans ?_
    refine (Arith.uncUpdate_apply (k0_pay2 (F := Ideal)) (psBlk m c t) r).trans ?_
    rw [Arith.cleared_unc]
  · by_cases h1 : t.val % 8 = 7
    · rw [if_neg h0, outsAt0_C m c t h0 h1]
      dsimp only
      refine (congrFun (Visit.uncAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact Arith.uncUpdate_apply (outsAt0 m c (t.val - 1) (Nat.lt_of_le_of_lt (Nat.sub_le _ _) t.isLt)).2.2.2 (psBlk m c t) r
    · rw [if_neg h0, outsAt0_B m c t h0 h1]
      dsimp only
      refine (congrFun (Visit.uncAcc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
      exact Arith.uncUpdate_apply (outsAt0 m c (t.val - 1) (Nat.lt_of_le_of_lt (Nat.sub_le _ _) t.isLt)).2.2.2 (psBlk m c t) r

end Cert.KernelIdeal.Accum

end
-- ==== Proof.LibSumBlocks.lean ====
/-
  A finite sum taken block by block.

  A sequence of a * b terms splits into a consecutive blocks of b terms; term l of block f is
  term b * f + l of the sequence. In a commutative additive monoid the sum of the block sums is the
  sum of the sequence. This is what joins a reduction accumulated over a grid axis, one block per
  grid step, to the same reduction taken in one piece; it needs nothing of the terms (over the
  extended reals it holds at the infinities too, addition there being commutative and associative).
-/
import Mathlib.Algebra.BigOperators.Fin
import Mathlib.Logic.Equiv.Fin.Basic

namespace Cert.LibSumBlocks

/-- `a` blocks of `b` consecutive terms make up the `a * b` terms: the sum over the blocks f < a of the block sums
    (term l < b of block f being `h (b * f + l)`) is the sum of `h k` over k < a * b. -/
theorem sum_blocks {M : Type*} [AddCommMonoid M] (a b : ℕ) (h : ℕ → M) :
    ∑ f ∈ Finset.range a, ∑ l : Fin b, h (b * f + l.val) = ∑ k : Fin (a * b), h k.val := by
  rw [Finset.sum_range, ← Equiv.sum_comp finProdFinEquiv (fun k : Fin (a * b) => h k.val), Fintype.sum_prod_type]
  refine Finset.sum_congr rfl fun f _ => Finset.sum_congr rfl fun l _ => ?_
  show h (b * f.val + l.val) = h (l.val + b * f.val)
  rw [Nat.add_comm]

end Cert.LibSumBlocks
-- ==== Proof.Totals.lean ====
/-
  From the visit-by-visit recurrence to the per-sample means.

  With E and U as before (|pred_mean - targets| and pred_std at a sample and a flat feature), the
  recurrence "entry after = entry before + this block's row sum, starting from zero at feature
  block 0" solves to a partial sum over the feature blocks handled so far; the induction is over
  the grid point, and consecutive points t - 1, t lie in one band exactly when t % 8 is not 0.
  After a band's last visit all 8 blocks are in, and 8 blocks of 32768 lanes are the 262144 flat
  features, so the column's entry is the sample's total; the output block holds that total times
  2^(-18).
-/
import proofs.«148570_j33818572488744_1_alg».proof.Proof.Accum
import proofs.«148570_j33818572488744_1_alg».proof.Proof.LibSumBlocks

noncomputable section

open Idealize.ShloMosaic Idealize.ShloMosaic.TcCoe Idealize.SL.Sem Idealize.ShloMosaic.ValueIdx

namespace Cert.KernelIdeal.Totals

open Cert.KernelIdeal Cert.KernelIdeal.Gen Cert.Features Cert.KernelIdeal.Blocks Cert.KernelIdeal.Accum

variable (m : (ℓ : Loc nD τ sig) → Buf (Elt Ideal) ℓ)

/-- The sum of a per-feature quantity g over feature blocks 0 … n. -/
def upTo (g : ℕ → EReal) (n : ℕ) : EReal :=
  ∑ f ∈ Finset.range (n + 1), ∑ l : Fin 32768, g (32768 * f + l.val)

theorem upTo_zero (g : ℕ → EReal) : upTo g 0 = ∑ l : Fin 32768, g (32768 * 0 + l.val) := by
  unfold upTo
  rw [Finset.sum_range_one]

theorem upTo_succ (g : ℕ → EReal) (n : ℕ) :
    upTo g (n + 1) = upTo g n + ∑ l : Fin 32768, g (32768 * (n + 1) + l.val) := by
  unfold upTo
  rw [Finset.sum_range_succ]

/-- Consecutive points of one band have the same samples. -/
theorem sampleOf_pred (n : ℕ) (hn : n + 1 < cfg0.N) (h0 : ¬(n + 1) % 8 = 0) (r : Fin 32) :
    sampleOf ⟨n, Nat.lt_of_succ_lt hn⟩ r = sampleOf ⟨n + 1, hn⟩ r := by
  apply Fin.ext
  show 32 * (n / 8) + r.val = 32 * ((n + 1) / 8) + r.val
  omega

/-- The error column after the visit at point n: the partial sum over feature blocks 0 … n % 8. -/
theorem errCol_eq (c : Dev nD) : ∀ (n : ℕ) (hn : n < cfg0.N) (r : Fin 32),
    (outsAt0 m c n hn).2.2.1 (ix2 r (0 : Fin 1)) = upTo (errOn m c (sampleOf ⟨n, hn⟩ r)) (n % 8)
  | 0, hn, r => by
    refine (errCol_step m c ⟨0, hn⟩ r).trans ?_
    unfold errPrev
    rw [if_pos (show (⟨0, hn⟩ : Fin cfg0.N).val % 8 = 0 from rfl), zero_add]
    exact (upTo_zero _).symm
  | n + 1, hn, r => by
    refine (errCol_step m c ⟨n + 1, hn⟩ r).trans ?_
    unfold errPrev
    by_cases h0 : (n + 1) % 8 = 0
    · rw [if_pos (show (⟨n + 1, hn⟩ : Fin cfg0.N).val % 8 = 0 from h0), zero_add]
      show ∑ l : Fin 32768, errOn m c _ (32768 * ((n + 1) % 8) + l.val) = _
      rw [h0]
      exact (upTo_zero _).symm
    · rw [if_neg (show ¬(⟨n + 1, hn⟩ : Fin cfg0.N).val % 8 = 0 from h0)]
      show (outsAt0 m c n _).2.2.1 (ix2 r (0 : Fin 1)) + ∑ l : Fin 32768, errOn m c _ (32768 * ((n + 1) % 8) + l.val) = _
      rw [errCol_eq c n (Nat.lt_of_succ_lt hn) r, sampleOf_pred n hn h0 r]
      have hmod : (n + 1) % 8 = n % 8 + 1 := by omega
      rw [hmod]
      exact (upTo_succ _ _).symm

/-- The uncertainty column after the visit at point n. -/
theorem uncCol_eq (c : Dev nD) : ∀ (n : ℕ) (hn : n < cfg0.N) (r : Fin 32),
    (outsAt0 m c n hn).2.2.2 (ix2 r (0 : Fin 1)) = upTo (uncOn m c (sampleOf ⟨n, hn⟩ r)) (n % 8)
  | 0, hn, r => by
    refine (uncCol_step m c ⟨0, hn⟩ r).trans ?_
    unfold uncPrev
    rw [if_pos (show (⟨0, hn⟩ : Fin cfg0.N).val % 8 = 0 from rfl), zero_add]
    exact (upTo_zero _).symm
  | n + 1, hn, r => by
    refine (uncCol_step m c ⟨n + 1, hn⟩ r).trans ?_
    unfold uncPrev
    by_cases h0 : (n + 1) % 8 = 0
    · rw [if_pos (show (⟨n + 1, hn⟩ : Fin cfg0.N).val % 8 = 0 from h0), zero_add]
      show ∑ l : Fin 32768, uncOn m c _ (32768 * ((n + 1) % 8) + l.val) = _
      rw [h0]
      exact (upTo_zero _).symm
    · rw [if_neg (show ¬(⟨n + 1, hn⟩ : Fin cfg0.N).val % 8 = 0 from h0)]
      show (outsAt0 m c n _).2.2.2 (ix2 r (0 : Fin 1)) + ∑ l : Fin 32768, uncOn m c _ (32768 * ((n + 1) % 8) + l.val) = _
      rw [uncCol_eq c n (Nat.lt_of_succ_lt hn) r, sampleOf_pred n hn h0 r]
      have hmod : (n + 1) % 8 = n % 8 + 1 := by omega
      rw [hmod]
      exact (upTo_succ _ _).symm

/-- A sample's total of |pred_mean - targets| over its 262144 features, and of pred_std. -/
def errTotal (c : Dev nD) (b : Fin 64) : EReal :=
  ∑ k : Fin 262144, FloatOps.absf (F := Ideal) (φ := .f32) (pmArg m c (entry b k) - tgArg m c (entry b k))

def uncTotal (c : Dev nD) (b : Fin 64) : EReal := ∑ k : Fin 262144, psArg m c (entry b k)

/-- All 8 feature blocks together are all the features. -/
theorem upTo_err_all (c : Dev nD) (b : Fin 64) : upTo (errOn m c b) 7 = errTotal m c b := by
  unfold upTo errTotal
  refine (Cert.LibSumBlocks.sum_blocks 8 32768 (errOn m c b)).trans ?_
  refine Finset.sum_congr rfl fun k _ => ?_
  unfold errOn
  rw [dif_pos k.isLt]

theorem upTo_unc_all (c : Dev nD) (b : Fin 64) : upTo (uncOn m c b) 7 = uncTotal m c b := by
  unfold upTo uncTotal
  refine (Cert.LibSumBlocks.sum_blocks 8 32768 (uncOn m c b)).trans ?_
  refine Finset.sum_congr rfl fun k _ => ?_
  unfold uncOn
  rw [dif_pos k.isLt]

/-- At a band's last visit the error output block is the error column just updated, scaled. -/
theorem errOut_eq (c : Dev nD) (t : Fin cfg0.N) (h7 : t.val % 8 = 7) (r : Fin 32) :
    (outsAt0 m c t.val t.isLt).1 (ix2 r (0 : Fin 1))
      = errTotal m c (sampleOf t r) * Ideal.ofBits .f32 0x36800000#32 := by
  have h0 : ¬t.val % 8 = 0 := by omega
  have hcol := errCol_eq m c t.val t.isLt r
  rw [h7, upTo_err_all] at hcol
  rw [← hcol, outsAt0_C m c t h0 h7]
  dsimp only
  refine (congrFun (Visit.errOut_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
  refine (Arith.errScaled_apply _ _).trans ?_
  refine congrArg (· * Ideal.ofBits .f32 0x36800000#32) ?_
  exact (congrFun (Visit.errAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).symm

/-- At a band's last visit the uncertainty output block is the uncertainty column just updated, scaled. -/
theorem uncOut_eq (c : Dev nD) (t : Fin cfg0.N) (h7 : t.val % 8 = 7) (r : Fin 32) :
    (outsAt0 m c t.val t.isLt).2.1 (ix2 r (0 : Fin 1))
      = uncTotal m c (sampleOf t r) * Ideal.ofBits .f32 0x36800000#32 := by
  have h0 : ¬t.val % 8 = 0 := by omega
  have hcol := uncCol_eq m c t.val t.isLt r
  rw [h7, upTo_unc_all] at hcol
  rw [← hcol, outsAt0_C m c t h0 h7]
  dsimp only
  refine (congrFun (Visit.uncOut_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans ?_
  refine (Arith.uncScaled_apply _ _).trans ?_
  refine congrArg (· * Ideal.ofBits .f32 0x36800000#32) ?_
  exact (congrFun (Visit.uncAcc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).symm

end Cert.KernelIdeal.Totals

end
-- ==== Proof.Final.lean ====
/-
  The two result arrays after the region.

  Each result array has shape [64, 1]: one number per sample. Its block at grid point t is rows
  32 * (t / 8) … + 31, and the pipeline writes a block back only after a band's last visit
  (t % 8 = 7, that is t = 7 and t = 15), when the block holds each sample's total times 2^(-18).
  Point 8 * (i / 32) + 7 writes back the block containing row i, so the two write-backs cover the
  array and it ends holding, at every sample b, that sample's total times 2^(-18).
-/
import proofs.«148570_j33818572488744_1_alg».proof.Proof.Totals
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Features Cert.KernelIdeal.Blocks Cert.KernelIdeal.Accum
  Cert.KernelIdeal.Totals

variable (m : (ℓ : Loc nD τ sig) → Buf (Elt Ideal) ℓ)

/-- What the error result array ends holding: each sample's total of |pred_mean - targets|, times 2^(-18). -/
def errMeans (c : Dev nD) : Vec Ideal S64x1 .f32 :=
  fun i => errTotal m c (i 0) * Ideal.ofBits .f32 0x36800000#32

/-- What the uncertainty result array ends holding: each sample's total of pred_std, times 2^(-18). -/
def uncMeans (c : Dev nD) : Vec Ideal S64x1 .f32 :=
  fun i => uncTotal m c (i 0) * Ideal.ofBits .f32 0x36800000#32

/-- Both output windows sit on block row t / 8, block column 0. -/
theorem index_out : ∀ t : Fin cfg0.N,
    (win0_3.index t (0 : Fin 2) = t.val / 8 ∧ win0_3.index t (1 : Fin 2) = 0)
    ∧ (win0_4.index t (0 : Fin 2) = t.val / 8 ∧ win0_4.index t (1 : Fin 2) = 0) :=
  (by decide +kernel : ∀ t : Fin grid0.N,
    (win0_3.index t (0 : Fin 2) = t.val / 8 ∧ win0_3.index t (1 : Fin 2) = 0)
    ∧ (win0_4.index t (0 : Fin 2) = t.val / 8 ∧ win0_4.index t (1 : Fin 2) = 0))

/-- What a band's last visit writes back to the error array is that band's block of `errMeans`. -/
theorem errFlushed (c : Dev nD) (t : Fin cfg0.N) (hf : (cfg0.win 3).flush t = true) :
    (dats m 0 c).flushed 3 t = ((cfg0.win 3).blk t).view.read (Elt Ideal) (errMeans m c) := by
  have h7 : t.val % 8 = 7 := (flush0_3 t).mp hf
  show (cfg0.win 3).cut (grid0.coords t) ((dats m 0 c).after 3 t) = _
  rw [after0_3]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).1 (ix2 r (0 : Fin 1)) = errMeans m c (((cfg0.win 3).blk t).view.emb (ix2 r (0 : Fin 1)))
  rw [errOut_eq m c t h7 r]
  unfold errMeans
  refine congrArg (fun b => errTotal m c b * Ideal.ofBits .f32 0x36800000#32) (Fin.ext ?_)
  show 32 * (t.val / 8) + r.val = win0_3.index t (0 : Fin 2) * 32 + 1 * r.val
  rw [(index_out t).1.1]; omega

theorem uncFlushed (c : Dev nD) (t : Fin cfg0.N) (hf : (cfg0.win 4).flush t = true) :
    (dats m 0 c).flushed 4 t = ((cfg0.win 4).blk t).view.read (Elt Ideal) (uncMeans m c) := by
  have h7 : t.val % 8 = 7 := (flush0_4 t).mp hf
  show (cfg0.win 4).cut (grid0.coords t) ((dats m 0 c).after 4 t) = _
  rw [after0_4]
  funext j
  obtain ⟨r, z, rfl⟩ : ∃ (r : Fin 32) (z : Fin 1), j = ix2 r z := ⟨j 0, j 1, eq_ix2 j⟩
  obtain rfl : z = 0 := Subsingleton.elim _ _
  show (outsAt0 m c t.val t.isLt).2.1 (ix2 r (0 : Fin 1)) = uncMeans m c (((cfg0.win 4).blk t).view.emb (ix2 r (0 : Fin 1)))
  rw [uncOut_eq m c t h7 r]
  unfold uncMeans
  refine congrArg (fun b => uncTotal m c b * Ideal.ofBits .f32 0x36800000#32) (Fin.ext ?_)
  show 32 * (t.val / 8) + r.val = win0_4.index t (0 : Fin 2) * 32 + 1 * r.val
  rw [(index_out t).2.1]; omega

/-- An index lies in point t's block of the error array iff each coordinate is in the block's range. -/
theorem mem_errBlk (t : Fin cfg0.N) (i : S64x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v3_0).slice (win0_3.rect t)).set ↔ _
  rw [View.set_slice_whole, Rect.mem_set_unit]
  exact Iff.rfl

theorem mem_uncBlk (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v3_1).slice (win0_4.rect t)).set ↔ _
  rw [View.set_slice_whole, Rect.mem_set_unit]
  exact Iff.rfl

/-- The last visit of the band containing row i. -/
def lastVisit (i : S64x1.Idx) : Fin cfg0.N :=
  ⟨8 * ((i 0).val / 32) + 7, by have h : (i 0).val < 64 := (i 0).isLt; have hN : cfg0.N = 16 := N_0; omega⟩

theorem lastVisit_mod (i : S64x1.Idx) : (lastVisit i).val % 8 = 7 := by
  show (8 * ((i 0).val / 32) + 7) % 8 = 7
  omega

theorem lastVisit_div (i : S64x1.Idx) : (lastVisit i).val / 8 = (i 0).val / 32 := by
  show (8 * ((i 0).val / 32) + 7) / 8 = (i 0).val / 32
  omega

/-- Every row of the error array is in a block that is written back. -/
theorem errCover (i : S64x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  refine ⟨lastVisit i, (flush0_3 _).mpr (lastVisit_mod i), ?_⟩
  rw [mem_errBlk]
  intro a
  match a with
  | ⟨0, _⟩ =>
    show win0_3.index (lastVisit i) (0 : Fin 2) * 32 ≤ (i 0).val ∧ (i 0).val < win0_3.index (lastVisit i) (0 : Fin 2) * 32 + 32
    rw [(index_out (lastVisit i)).1.1, lastVisit_div]; omega
  | ⟨1, _⟩ =>
    show win0_3.index (lastVisit i) (1 : Fin 2) * 1 ≤ (i 1).val ∧ (i 1).val < win0_3.index (lastVisit i) (1 : Fin 2) * 1 + 1
    rw [(index_out (lastVisit i)).1.2]; omega

theorem uncCover (i : S64x1.Idx) :
    ∃ t : Fin cfg0.N, (cfg0.win 4).flush t = true ∧ i ∈ ((cfg0.win 4).blk t).view.set := by
  have hi0 : (i 0).val < 64 := (i 0).isLt
  have hi1 : (i 1).val < 1 := (i 1).isLt
  refine ⟨lastVisit i, (flush0_4 _).mpr (lastVisit_mod i), ?_⟩
  rw [mem_uncBlk]
  intro a
  match a with
  | ⟨0, _⟩ =>
    show win0_4.index (lastVisit i) (0 : Fin 2) * 32 ≤ (i 0).val ∧ (i 0).val < win0_4.index (lastVisit i) (0 : Fin 2) * 32 + 32
    rw [(index_out (lastVisit i)).2.1, lastVisit_div]; omega
  | ⟨1, _⟩ =>
    show win0_4.index (lastVisit i) (1 : Fin 2) * 1 ≤ (i 1).val ∧ (i 1).val < win0_4.index (lastVisit i) (1 : Fin 2) * 1 + 1
    rw [(index_out (lastVisit i)).2.2]; omega

/-- The error result array after the region. -/
theorem errFinal (c : Dev nD) : (dats m 0 c).arrAt 3 cfg0.N = errMeans m c :=
  (dats m 0 c).arrAt_eq_of_cover 3 (errMeans m c) (errFlushed m c) errCover

/-- The uncertainty result array after the region. -/
theorem uncFinal (c : Dev nD) : (dats m 0 c).arrAt 4 cfg0.N = uncMeans m c :=
  (dats m 0 c).arrAt_eq_of_cover 4 (uncMeans m c) (uncFlushed m c) uncCover

end Cert.KernelIdeal.Final

end
-- ==== Proof.PairLoss.lean ====
/-
  The part both programs share: the pairwise ranking loss of two vectors of 64 numbers.

  Given per-sample errors e and uncertainties u, both programs form, for every ordered pair
  (i, j), the number  (if e i > e j then u j - u i else u i - u j) + 1, clip it below at 0, keep
  the pairs with i < j (a 0/1 mask built from two iotas), add everything up from 0 and divide
  by 2016 = 64 * 63 / 2. The two programs spell this with the same operations and the same
  constants; they differ only in how e and u are obtained. So the loss is stated once, as a
  function of e and u, and never opened: equal vectors give equal losses.

  The shape side conditions each operation carries are taken as hypotheses, so that each
  program supplies its own proofs of them.
-/
import Idealize.ShloMosaic.PureOps.Ideal

noncomputable section

open Idealize.ShloMosaic

namespace Cert.PairLoss

abbrev Vec64 : Shape := ⟨1, ![64]⟩
abbrev Col : Shape := ⟨2, ![64, 1]⟩
abbrev Row : Shape := ⟨2, ![1, 64]⟩
abbrev Sq : Shape := ⟨2, ![64, 64]⟩
abbrev Sc : Shape := ⟨0, ![]⟩

/-- The side conditions of the loss's operations. -/
structure Facts : Prop where
  col : Vec64.BroadcastsInDim Col (![0] : Fin 1 → Fin Col.rank)
  row : Vec64.BroadcastsInDim Row (![1] : Fin 1 → Fin Row.rank)
  colSq : Col.BroadcastsInDim Sq (![0, 1] : Fin 2 → Fin Sq.rank)
  rowSq : Row.BroadcastsInDim Sq (![0, 1] : Fin 2 → Fin Sq.rank)
  scSq : Sc.BroadcastsInDim Sq (![] : Fin 0 → Fin Sq.rank)
  red : Sq.ReducesTo [0, 1] Sc
  pos : 0 < Sc.numel

/-- The loss of errors `e` and uncertainties `u`. -/
def loss (h : Facts) (e u : FVec Ideal Vec64 .f32) : FVec Ideal Sc .f32 :=
  Host.divf (F := Ideal)
    (Host.reduceAdd (F := Ideal)
      (mulf
        (maximumf
          (addf
            (select
              (cmpf .ogt
                (broadcastInDim Sq ![0, 1] h.colSq (broadcastInDim Col ![0] h.col e))
                (broadcastInDim Sq ![0, 1] h.rowSq (broadcastInDim Row ![1] h.row e)))
              (subf
                (broadcastInDim Sq ![0, 1] h.rowSq (broadcastInDim Row ![1] h.row u))
                (broadcastInDim Sq ![0, 1] h.colSq (broadcastInDim Col ![0] h.col u)))
              (subf
                (broadcastInDim Sq ![0, 1] h.colSq (broadcastInDim Col ![0] h.col u))
                (broadcastInDim Sq ![0, 1] h.rowSq (broadcastInDim Row ![1] h.row u))))
            (broadcastInDim Sq ![] h.scSq (constant (F := Ideal) Sc .f32 0x3F800000#32)))
          (broadcastInDim Sq ![] h.scSq (constant (F := Ideal) Sc .f32 0x00000000#32)))
        (select
          (cmpi .sge
            (addi (iotaInDim Sq 32 0) (broadcastInDim Sq ![] h.scSq (constantI Sc 32 0#32)))
            (iotaInDim Sq 32 1))
          (broadcastInDim Sq ![] h.scSq (constant (F := Ideal) Sc .f32 0x00000000#32))
          (broadcastInDim Sq ![] h.scSq (constant (F := Ideal) Sc .f32 0x3F800000#32))))
      (constant (F := Ideal) Sc .f32 0x00000000#32) h.red h.pos)
    (constant (F := Ideal) Sc .f32 0x44FC0000#32)

end Cert.PairLoss

end
-- ==== Proof.KernelTail.lean ====
/-
  The idealized kernel's result.

  After the region the host reshapes each [64, 1] result array to a vector of 64 numbers (entry
  b of the vector is entry (b, 0) of the array) and computes the pairwise ranking loss of the two
  vectors. The arrays are what the region left in them (the per-sample totals times 2^(-18)), so
  the result is the loss of those two vectors of means; the run of the whole program is the
  frame run with that value named at the result buffer and the three inputs unchanged.
-/
import proofs.«148570_j33818572488744_1_alg».proof.Proof.Final
import proofs.«148570_j33818572488744_1_alg».proof.Proof.PairLoss
import Idealize.ShloMosaic.Lib.StableHlo.Run

noncomputable section

open Idealize.ShloMosaic Idealize.ShloMosaic.TcCoe Idealize.SL.Sem Idealize.ShloMosaic.ValueIdx

namespace Cert.KernelIdeal.Tail

open Cert.KernelIdeal Cert.KernelIdeal.Gen Cert.KernelIdeal.Final

variable (m : (ℓ : Loc nD τ sig) → Buf (Elt Ideal) ℓ) (ρ : Dev nD → PrngReg)

/-- This program's proofs of the loss's side conditions. -/
theorem lossFacts : Cert.PairLoss.Facts :=
  ⟨bcast_S64_S64x1_0, bcast_S64_S1x64_1, bcast_S64x1_S64x64_0_1, bcast_S1x64_S64x64_0_1, bcast_S_S64x64,
    reducesTo_S64x64_S_d0_1, h_S_⟩

/-- A [64, 1] column viewed as a vector of 64: entry b of the vector is entry (b, 0) of the column. -/
theorem perSample_apply (v : S64x1.Idx → EReal) (h : S64x1.ShapeCasts S64) (b : Fin 64) :
    shapeCast S64 v h (ix1 b) = v (ix2 b (0 : Fin 1)) :=
  shapeCast_apply v h (ix1 b) (ix2 b (0 : Fin 1)) (by
    rw [Shape.rowMajor_val_two, Shape.rowMajor_val_one]
    show b.val * 1 + 0 = b.val
    omega)

/-- The per-sample mean errors and mean uncertainties the kernel hands to the loss. -/
abbrev errVec (c : Dev nD) : FVec Ideal S64 .f32 := shapeCast S64 (errMeans m c) shapeCasts_S64x1_S64
abbrev uncVec (c : Dev nD) : FVec Ideal S64 .f32 := shapeCast S64 (uncMeans m c) shapeCasts_S64x1_S64

set_option maxRecDepth 8192 in
set_option maxHeartbeats 2000000 in
/-- What the host tail leaves in the result buffer: the loss of the two vectors of means. -/
theorem result_eq (c : Dev nD) :
    Pipeline.afterTail₀ cfgs (dats m) 0 (V0 m) [hostOps1, hostOps1_1, hostOps1_2, hostOps1_3, hostOps1_4] c main_v28
      = Cert.PairLoss.loss lossFacts (errVec m c) (uncVec m c) := by
  have e3 : Pipeline.withArrays (cfgs 0).spec c (V0 m c) (fun w => (dats m 0 c).arrAt w (cfgs 0).N) (Proc.devRef .tc main_v3_0)
      = errMeans m c :=
    (Pipeline.withArrays_arr spec0 launch0.win.arr_inj c (V0 m c) (fun w => (dats m 0 c).arrAt w cfg0.N) 3).trans (errFinal m c)
  have e4 : Pipeline.withArrays (cfgs 0).spec c (V0 m c) (fun w => (dats m 0 c).arrAt w (cfgs 0).N) (Proc.devRef .tc main_v3_1)
      = uncMeans m c :=
    (Pipeline.withArrays_arr spec0 launch0.win.arr_inj c (V0 m c) (fun w => (dats m 0 c).arrAt w cfg0.N) 4).trans (uncFinal m c)
  unfold Pipeline.afterTail₀
  simp only [hostOps1, hostOps1_1, hostOps1_2, hostOps1_3, hostOps1_4, List.flatten_cons, List.flatten_nil,
    List.append_nil, List.cons_append, List.nil_append]
  after_results_simp
  rw [e3, e4]
  -- what is left compares the same operations applied to the same two arrays: it holds for ANY two arrays in
  -- their place, since none of the tail's operations looks inside them
  show _ = Cert.PairLoss.loss lossFacts (shapeCast S64 (errMeans m c) shapeCasts_S64x1_S64)
    (shapeCast S64 (uncMeans m c) shapeCasts_S64x1_S64)
  generalize errMeans m c = E
  generalize uncMeans m c = W
  rfl

/-- The run, read: the result buffer at the loss of the two vectors of means, the inputs unchanged. -/
theorem run : θ_run defs (onTc (τ := τ) (main (F := Ideal))) ⟨m, fun _ => 0, ρ⟩ fun r => ∀ c : Dev nD,
      r.2.mem ((c.tc : Thread nD τ).loc main_v28) = Cert.PairLoss.loss lossFacts (errVec m c) (uncVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.MeanLaw.lean ====
/-
  The arithmetic that joins the two programs, stated with no program in sight.

  A per-sample mean over 262144 = 2^18 entries is taken two ways. One side multiplies the
  row sum by the float whose pattern is 0x36800000; that pattern has biased exponent 109 and a
  zero fraction, so it denotes exactly 2^(-18) = 1/262144. The other side divides the row sum by
  the float 0x48800000, biased exponent 145 and zero fraction, exactly 2^18 = 262144. On the
  extended reals division by a nonzero real IS multiplication by its reciprocal, at the two
  infinities as well, so the two means agree for every value of the row sum (`mean_eq`).

  (That the row sum itself may be grouped into blocks or taken in one piece is a separate fact
  about finite sums, stated on its own.)
-/
import Idealize.ShloMosaic.PureOps.Ideal
import Idealize.ShloMosaic.PureOps.Ideal.Laws

noncomputable section

namespace Cert.MeanLaw

open Idealize.ShloMosaic

/-- The pattern 0x36800000 denotes 1/262144. -/
theorem ofBits_inv_count : Ideal.ofBits .f32 0x36800000#32 = ((1 / 262144 : ℝ) : EReal) := by
  simp [Ideal.ofBits, Ideal.ieee, -EReal.coe_mul]; norm_num

/-- The pattern 0x48800000 denotes 262144. -/
theorem ofBits_count : Ideal.ofBits .f32 0x48800000#32 = ((262144 : ℝ) : EReal) := by
  simp [Ideal.ofBits, Ideal.ieee, -EReal.coe_mul]; norm_num

/-- Scaling a row sum by 2^(-18) is dividing it by 2^18, for every extended real. -/
theorem mean_eq (x : EReal) :
    x * Ideal.ofBits .f32 0x36800000#32 = Ideal.div x (Ideal.ofBits .f32 0x48800000#32) := by
  rw [ofBits_inv_count, ofBits_count, Ideal.div_coe (by norm_num : (262144 : ℝ) ≠ 0)]

end Cert.MeanLaw

end
-- ==== Proof.HostMean.lean ====
/-
  The host's per-sample mean, read at a sample.

  The reference sums an array of shape [64, 4, 256, 256] over its three feature axes starting
  from the float 0, then divides every sample's sum by the float 262144 broadcast to the 64
  samples. At sample b that is (0 + sum over the flat feature k of the entry at (b, k)) / 2^18,
  which over the extended reals is the plain sum times 2^(-18).
-/
import proofs.«148570_j33818572488744_1_alg».proof.Proof.Features
import proofs.«148570_j33818572488744_1_alg».proof.Proof.MeanLaw
import Idealize.ShloMosaic.Lib.IdealHost

noncomputable section

open Idealize.ShloMosaic Idealize.ShloMosaic.ValueIdx

namespace Cert.HostMean

open Cert.Features

abbrev Sc : Shape := ⟨0, ![]⟩

/-- The host's mean over the feature axes at sample b: the sample's sum, times 2^(-18). -/
theorem mean_apply (h : Full.ReducesTo [1, 2, 3] PerSample) (hp : 0 < Sc.numel)
    (hb : Sc.BroadcastsInDim PerSample (![] : Fin 0 → Fin PerSample.rank)) (x : FVec Ideal Full .f32) (b : Fin 64) :
    Host.divf (F := Ideal) (Host.reduceAdd (F := Ideal) x (constant (F := Ideal) Sc .f32 0x00000000#32) h hp)
        (broadcastInDim PerSample ![] hb (constant (F := Ideal) Sc .f32 0x48800000#32)) (ix1 b)
      = (∑ k : Fin 262144, x (entry b k)) * Ideal.ofBits .f32 0x36800000#32 := by
  show Ideal.div (Ideal.hostReduceAdd h x (Ideal.ofBits .f32 0x00000000#32) (ix1 b))
      (broadcastInDim PerSample ![] hb (constant (F := Ideal) Sc .f32 0x48800000#32) (ix1 b)) = _
  rw [sampleSum_apply, broadcastInDim_scalar_apply, Ideal.ofBits_zero_f32, zero_add]
  exact (Cert.MeanLaw.mean_eq _).symm

end Cert.HostMean

end
-- ==== Proof.RefSide.lean ====
/-
  The idealized reference's result.

  The reference takes each sample's mean of |pred_mean - targets| and of pred_std by summing over
  the three feature axes from 0 and dividing by 262144, then computes the same pairwise ranking
  loss of the two vectors of means. Its run's result term is that loss by unfolding alone.
-/
import proofs.«148570_j33818572488744_1_alg».proof.Proof.Gen.ReferenceIdeal.Run
import proofs.«148570_j33818572488744_1_alg».proof.Proof.PairLoss
import proofs.«148570_j33818572488744_1_alg».proof.Proof.HostMean

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.Features

/-- This program's proofs of the loss's side conditions. -/
theorem lossFacts : Cert.PairLoss.Facts :=
  ⟨bcast_S64_S64x1_0, bcast_S64_S1x64_1, bcast_S64x1_S64x64_0_1, bcast_S1x64_S64x64_0_1, bcast_S_S64x64,
    reducesTo_S64x64_S_d0_1, h_S_⟩

/-- The reference's per-sample mean error: the sum of |x0 - x2| over the feature axes, over 262144. -/
abbrev errVec (x0 x2 : FVec Ideal S64x4x256x256 .f32) : FVec Ideal S64 .f32 :=
  Host.divf (F := Ideal)
    (Host.reduceAdd (F := Ideal) (Host.absf (subf x0 x2)) (constant (F := Ideal) S_ .f32 0x00000000#32)
      reducesTo_S64x4x256x256_S64_d1_2_3 h_S_)
    (broadcastInDim S64 ![] bcast_S_S64 (constant (F := Ideal) S_ .f32 0x48800000#32))

/-- The reference's per-sample mean uncertainty: the sum of x1 over the feature axes, over 262144. -/
abbrev uncVec (x1 : FVec Ideal S64x4x256x256 .f32) : FVec Ideal S64 .f32 :=
  Host.divf (F := Ideal)
    (Host.reduceAdd (F := Ideal) x1 (constant (F := Ideal) S_ .f32 0x00000000#32)
      reducesTo_S64x4x256x256_S64_d1_2_3 h_S_)
    (broadcastInDim S64 ![] bcast_S_S64 (constant (F := Ideal) S_ .f32 0x48800000#32))

/-- At sample b the mean error is the sample's total of |x0 - x2| times 2^(-18). -/
theorem errVec_apply (x0 x2 : FVec Ideal S64x4x256x256 .f32) (b : Fin 64) :
    errVec x0 x2 (ix1 b)
      = (∑ k : Fin 262144, FloatOps.absf (F := Ideal) (φ := .f32) (x0 (entry b k) - x2 (entry b k)))
          * Ideal.ofBits .f32 0x36800000#32 :=
  Cert.HostMean.mean_apply reducesTo_S64x4x256x256_S64_d1_2_3 h_S_ bcast_S_S64 (Host.absf (subf x0 x2)) b

/-- At sample b the mean uncertainty is the sample's total of x1 times 2^(-18). -/
theorem uncVec_apply (x1 : FVec Ideal S64x4x256x256 .f32) (b : Fin 64) :
    uncVec x1 (ix1 b) = (∑ k : Fin 262144, x1 (entry b k)) * Ideal.ofBits .f32 0x36800000#32 :=
  Cert.HostMean.mean_apply reducesTo_S64x4x256x256_S64_d1_2_3 h_S_ bcast_S_S64 x1 b

variable (m : (ℓ : Loc nD τ sig) → Buf (Elt Ideal) ℓ) (ρ : Dev nD → PrngReg)

set_option maxRecDepth 8192 in
/-- The run, read: the result buffer at the loss of the reference's two vectors of means, the inputs unchanged. -/
theorem run : θ_run defs (onTc (τ := τ) (main (F := Ideal))) ⟨m, fun _ => 0, ρ⟩ fun r => ∀ c : Dev nD,
      r.2.mem ((c.tc : Thread nD τ).loc main_v30)
        = Cert.PairLoss.loss lossFacts
            (errVec (m ((c.tc : Thread nD τ).loc main_arg0)) (m ((c.tc : Thread nD τ).loc main_arg2)))
            (uncVec (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.Value.run (F := Ideal) m ρ)

end Cert.ReferenceIdeal.RefValue

end
-- ==== Proof.Bridge.lean ====
/-
  The two programs hand the loss the same two vectors.

  At sample b the kernel's mean error is entry (b, 0) of its result array, the sample's total of
  |pred_mean - targets| over the 262144 flat features times 2^(-18); the reference's is the same
  total, summed over the three feature axes from 0 and divided by 2^18, which is again the total
  times 2^(-18). Likewise for the mean of pred_std. The totals are literally the same sum of the
  same entries of the inputs.
-/
import proofs.«148570_j33818572488744_1_alg».proof.Proof.KernelTail
import proofs.«148570_j33818572488744_1_alg».proof.Proof.RefSide

noncomputable section

open Idealize.ShloMosaic Idealize.ShloMosaic.TcCoe Idealize.SL.Sem Idealize.ShloMosaic.ValueIdx

namespace Cert.Proof.Bridge

variable (m : (ℓ : Loc Cert.KernelIdeal.nD Cert.KernelIdeal.τ Cert.KernelIdeal.sig) → Buf (Elt Ideal) ℓ)

/-- The kernel's per-sample mean errors are the reference's, of the same inputs. -/
theorem errVec_eq (c : Dev Cert.KernelIdeal.nD) :
    Cert.KernelIdeal.Tail.errVec m c
      = Cert.ReferenceIdeal.RefValue.errVec
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  funext i
  obtain ⟨b, rfl⟩ : ∃ b : Fin 64, i = ix1 b := ⟨i 0, eq_ix1 i⟩
  refine (Cert.KernelIdeal.Tail.perSample_apply _ _ b).trans ?_
  refine Eq.trans ?_ (Cert.ReferenceIdeal.RefValue.errVec_apply _ _ b).symm
  rfl

/-- The kernel's per-sample mean uncertainties are the reference's, of the same input. -/
theorem uncVec_eq (c : Dev Cert.KernelIdeal.nD) :
    Cert.KernelIdeal.Tail.uncVec m c
      = Cert.ReferenceIdeal.RefValue.uncVec
          (m ((c.tc : Thread Cert.KernelIdeal.nD Cert.KernelIdeal.τ).loc Cert.KernelIdeal.main_arg1)) := by
  funext i
  obtain ⟨b, rfl⟩ : ∃ b : Fin 64, i = ix1 b := ⟨i 0, eq_ix1 i⟩
  refine (Cert.KernelIdeal.Tail.perSample_apply _ _ b).trans ?_
  refine Eq.trans ?_ (Cert.ReferenceIdeal.RefValue.uncVec_apply _ b).symm
  rfl

end Cert.Proof.Bridge

end
-- ==== Proof.lean ====
/-
  The certificate: a tiled streaming reduction against its plain reference.

  Both programs map three arrays of shape [64, 4, 256, 256] (predicted means, predicted standard
  deviations, targets) to one number: the pairwise margin ranking loss of the per-sample mean
  absolute error against the per-sample mean predicted deviation.

  The kernel flattens each sample's 4 * 256 * 256 = 262144 features, walks them in 8 blocks of
  32768 for each of 2 bands of 32 samples, keeps the two running row sums in scratch memory, and
  after a band's last block writes each sum times the float 2^(-18); the host then computes the
  loss of the two vectors of 64 means. The reference sums over the three feature axes and divides
  by the float 2^18, then computes the same loss with the same operations and constants.

  Over the extended reals the two agree for every input: a finite sum does not depend on how it
  is grouped, and multiplying by 2^(-18) is dividing by 2^18, at the infinities as well. So no use
  is made of the inputs being finite. The idealization rewrote nothing, so the kernel as printed
  and as idealized are the same text read at two instances.

  The frames of the kernel (at both instances) are the generated ones; the reference's frame is its
  generated run with the result dropped.
-/
import proofs.«148570_j33818572488744_1_alg».proof.Defs
import proofs.«148570_j33818572488744_1_alg».proof.Proof.Gen.Kernel
import proofs.«148570_j33818572488744_1_alg».proof.Proof.Gen.Kernel.Skeleton
import proofs.«148570_j33818572488744_1_alg».proof.Proof.Gen.Kernel.Launch
import proofs.«148570_j33818572488744_1_alg».proof.Proof.Gen.Kernel.Points
import proofs.«148570_j33818572488744_1_alg».proof.Proof.Gen.Kernel.Frame
import proofs.«148570_j33818572488744_1_alg».proof.Proof.Gen.KernelIdeal
import proofs.«148570_j33818572488744_1_alg».proof.Proof.Gen.KernelIdeal.Skeleton
import proofs.«148570_j33818572488744_1_alg».proof.Proof.Gen.KernelIdeal.Launch
import proofs.«148570_j33818572488744_1_alg».proof.Proof.Gen.KernelIdeal.Points
import proofs.«148570_j33818572488744_1_alg».proof.Proof.Gen.KernelIdeal.Frame
import proofs.«148570_j33818572488744_1_alg».proof.Proof.Gen.ReferenceIdeal
import proofs.«148570_j33818572488744_1_alg».proof.Proof.Gen.ReferenceIdeal.Run
import proofs.«148570_j33818572488744_1_alg».proof.Proof.Gen.ReferenceIdeal.Read
import proofs.«148570_j33818572488744_1_alg».proof.Proof.Gen.Pre_finite_inputs
import Idealize.ShloMosaic.Adequacy
import Idealize.ShloMosaic.Init
import proofs.«148570_j33818572488744_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the same two vectors of per-sample means. -/
theorem algebraic : Cert.algebraic_KernelIdeal_ReferenceIdeal := by
  intro m ρ m' ρ' _ hagree
  refine ⟨fun c => Cert.PairLoss.loss Cert.KernelIdeal.Tail.lossFacts (Cert.KernelIdeal.Tail.errVec m c)
      (Cert.KernelIdeal.Tail.uncVec m c), Cert.KernelIdeal.Tail.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2, ← Cert.Proof.Bridge.errVec_eq m c, ← Cert.Proof.Bridge.uncVec_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
